-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S256 .f32) (main_arg6 : FVec F S40x256 .f32) (main_arg7 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S40x256 .f32 := Host.absf main_arg6
  let main_cst_8 : FVec F S_ .f32 := constant S_ .f32 0x7F800000#32
  let main_v25 : FVec F S40x256 .f32 := broadcastInDim S40x256 ![] bcast_S_S40x256 main_cst_8
  let main_v26 : IVec S40x256 1 := cmpf .olt main_v24 main_v25
  let main_c_9 : IVec S_ 1 := constantI S_ 1 1#1
  let main_v27 : IVec S_ 1 := (fun x v => Host.reduce IntOp.andi x v reducesTo_S40x256_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x256 .f32) (main_arg5 : FVec F S256 .f32) (main_arg6 : FVec F S40x256 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S128x256 : Shape := ⟨2, ![128, 256]⟩
abbrev S800000x256 : Shape := ⟨2, ![800000, 256]⟩
abbrev S1x40 : Shape := ⟨2, ![1, 40]⟩
abbrev S50000x40 : Shape := ⟨2, ![50000, 40]⟩
abbrev S5000x40 : Shape := ⟨2, ![5000, 40]⟩
abbrev S256x40 : Shape := ⟨2, ![256, 40]⟩

abbrev nBuf : Space → Nat
  | .hbm => 100
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S40x256, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000, .f32⟩
  | .hbm, ⟨42, _⟩ => ⟨S50000x1, .f32⟩
  | .hbm, ⟨43, _⟩ => ⟨S_, .f32⟩
  | .hbm, ⟨44, _⟩ => ⟨S256, .f32⟩
  | .hbm, ⟨45, _⟩ => ⟨S1x256, .f32⟩
  | .hbm, ⟨46, _⟩ => ⟨S50000x256, .f32⟩
  | .hbm, ⟨47, _⟩ => ⟨S800000x1, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S800000x256, .f32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S256, .f32⟩
  | .hbm, ⟨74, _⟩ => ⟨S1x256, .f32⟩
  | .hbm, ⟨75, _⟩ => ⟨S50000x256, .f32⟩
  | .hbm, ⟨76, _⟩ => ⟨S800000x1, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x256, .f32⟩
  | .hbm, ⟨86, _⟩ => ⟨S800000x256, .f32⟩
  | .hbm, ⟨87, _⟩ => ⟨S800000x256, .f32⟩
  | .hbm, ⟨88, _⟩ => ⟨S_, .f32⟩
  | .hbm, ⟨89, _⟩ => ⟨S50000x256, .f32⟩
  | .hbm, ⟨90, _⟩ => ⟨S800000x1, .i32⟩
  | .hbm, ⟨91, _⟩ => ⟨S50000x256, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S1x256, .f32⟩
  | .hbm, ⟨96, _⟩ => ⟨S50000x256, .f32⟩
  | .hbm, ⟨97, _⟩ => ⟨S50000x256, .f32⟩
  | .hbm, ⟨98, _⟩ => ⟨S1x40, .f32⟩
  | .hbm, ⟨99, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S256x128, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S40x256, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S256 : S_.BroadcastsInDim S256 (![] : Fin 0 → Fin S256.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S40_S1x40 : S40.ShapeCasts S1x40
  inb_S40x256_S40x256_0_0 : ∀ a, (![0, 0] : Fin 2 → Nat) a + S40x256.size a ≤ S40x256.size a
  h_S40x256 : 0 < S40x256.numel
  transposes_S40x256_p1_0_S256x40 : S40x256.Transposes [1, 0] S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40x256.size a ≤ S40x256.size a
  hwx2_1 : ∀ i : grid2.Coords, EltTy.bits .f32 = 32 ∨ (Rect.block (s := S40x256) S40x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S40x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S128x256 : Shape := ⟨2, ![128, 256]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S256x40 : Shape := ⟨2, ![256, 40]⟩
abbrev S50000x40 : Shape := ⟨2, ![50000, 40]⟩
abbrev S1x40 : Shape := ⟨2, ![1, 40]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256, .f32⟩
  | 4 => ⟨S256x256, .f32⟩
  | 5 => ⟨S256, .f32⟩
  | 6 => ⟨S40x256, .f32⟩
  | 7 => ⟨S40, .f32⟩
  | 8 => ⟨S1x800000, .i32⟩
  | 9 => ⟨S800000, .i32⟩
  | 10 => ⟨S1x800000, .i32⟩
  | 11 => ⟨S800000, .i32⟩
  | 12 => ⟨S128x256, .f32⟩
  | 13 => ⟨S50000x256, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x256, .f32⟩
  | 53 => ⟨S800000x256, .f32⟩
  | 54 => ⟨S800000x256, .f32⟩
  | 55 => ⟨S_, .f32⟩
  | 56 => ⟨S50000x256, .f32⟩
  | 57 => ⟨S800000x1, .i32⟩
  | 58 => ⟨S50000x256, .f32⟩
  | 59 => ⟨S50000, .f32⟩
  | 60 => ⟨S50000x1, .f32⟩
  | 61 => ⟨S50000x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S256x256, .f32⟩
  | 71 => ⟨S50000x256, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S800000x1, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x256, .f32⟩
  | 111 => ⟨S800000x256, .f32⟩
  | 112 => ⟨S800000x256, .f32⟩
  | 113 => ⟨S_, .f32⟩
  | 114 => ⟨S50000x256, .f32⟩
  | 115 => ⟨S800000x1, .i32⟩
  | 116 => ⟨S50000x256, .f32⟩
  | 117 => ⟨S50000, .f32⟩
  | 118 => ⟨S50000x1, .f32⟩
  | 119 => ⟨S50000x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S256x40, .f32⟩
  | 126 => ⟨S50000x40, .f32⟩
  | 127 => ⟨S1x40, .f32⟩
  | _ => ⟨S50000x128, .f32⟩

abbrev hbmTy0_1 (i : Nat) : BufTy := match i % 128 with
  | 0 => ⟨S50000x40, .f32⟩
  | 1 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_15 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x128_S128x256_1_0 : S256x128.Transposes [1, 0] S128x256
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S256x256_S256x256_1_0 : S256x256.Transposes [1, 0] S256x256
  transposes_S40x256_S256x40_1_0 : S40x256.Transposes [1, 0] S256x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.Spec.lean ====
/-
  The graph convolution network both programs compute, written once.

  With s, d the source and destination rows of the edge list, deg(v) = 1 + #{edges e : d(e) = v} and
  dinv = deg^(-1/2), a layer sends a feature matrix h (one row per node) to
      conv(h)(v) = Σ_{e : d(e) = v} dinv(s e) · dinv(d e) · h(s e)  +  dinv(v)² · h(v)  +  b ,
  the sum over edges being a scatter-add of gathered rows (negative indices wrap once, as jnp indexing does).
  The network is  lin₂(conv(lin₁(relu(conv(lin₀ x))))),  lin(X) = X·Wᵀ (+ a bias row in the last layer).
  `refOut` is that composition with each lin as a host dot product against the transposed weight;
  `lin` is the same linear layer read entry by entry over the extended reals.
-/
import proofs.«180855_j39410619908620_1_alg».proof.Proof.Gen.ReferenceIdeal
import Idealize.ShloMosaic.Lib.ValueIdx
import Idealize.ShloMosaic.PureOps.Ideal.Laws

open scoped BigOperators

noncomputable section

namespace Cert.Gcn

open Cert.ReferenceIdeal Cert.ReferenceIdeal.Gen Idealize.ShloMosaic Idealize.ShloMosaic.TcCoe Idealize.ShloMosaic.ValueIdx

variable {F : FTy → Type} [FloatOps F]

/-- The edges' source nodes: row 0 of the edge list. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: row 1 of the edge list. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- deg^(-1/2), deg(v) = 1 + the number of edges that end in v (a scatter-add of ones). -/
def dinv (d : (⟨S800000, .i32⟩ : BufTy).Contents (Elt F)) : (⟨S50000, .f32⟩ : BufTy).Contents (Elt F) :=
  Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 d) (broadcastInDim S800000 ![] bcast_S_S800000 (constant S_ .f32 0x3F800000#32))) (broadcastInDim S50000 ![] bcast_S_S50000 (constant S_ .f32 0x3F800000#32)))

/-- A column of gather indices: a negative index has the number of nodes added once. -/
def wrap (v : (⟨S800000, .i32⟩ : BufTy).Contents (Elt F)) : (⟨S800000x1, .i32⟩ : BufTy).Contents (Elt F) :=
  broadcastInDim S800000x1 ![0] bcast_S800000_S800000x1_0 (select (cmpi .slt v (broadcastInDim S800000 ![] bcast_S_S800000 (constantI S_ 32 0#32))) (addi v (broadcastInDim S800000 ![] bcast_S_S800000 (constantI S_ 32 50000#32))) v)

/-- The edge weights dinv(s e) · dinv(d e). -/
def norm (s d : (⟨S800000, .i32⟩ : BufTy).Contents (Elt F)) : (⟨S800000, .f32⟩ : BufTy).Contents (Elt F) :=
  mulf (Host.gather gather_S50000_S800000x1_S800000_n_0_n_n_0_1_1 (dinv d) (wrap s)) (Host.gather gather_S50000_S800000x1_S800000_n_0_n_n_0_1_1 (dinv d) (wrap d))

/-- The self-loop weights dinv(v)², as a column. -/
def selfn (d : (⟨S800000, .i32⟩ : BufTy).Contents (Elt F)) : (⟨S50000x1, .f32⟩ : BufTy).Contents (Elt F) :=
  broadcastInDim S50000x1 ![0] bcast_S50000_S50000x1_0 (mulf (dinv d) (dinv d))

/-- One aggregation over given edge data: scatter-add of the weighted gathered rows, plus the weighted own row, plus the bias. -/
def convCore (h : (⟨S50000x256, .f32⟩ : BufTy).Contents (Elt F)) (s d : (⟨S800000, .i32⟩ : BufTy).Contents (Elt F))
    (nrm : (⟨S800000, .f32⟩ : BufTy).Contents (Elt F)) (sn : (⟨S50000x1, .f32⟩ : BufTy).Contents (Elt F))
    (b : (⟨S256, .f32⟩ : BufTy).Contents (Elt F)) : (⟨S50000x256, .f32⟩ : BufTy).Contents (Elt F) :=
  addf (addf (Host.scatterAdd scatter_S50000x256_S800000x1_S800000x256_1_0_0_1 (broadcastInDim S50000x256 ![] bcast_S_S50000x256 (constant S_ .f32 0x00000000#32)) (broadcastInDim S800000x1 ![0] bcast_S800000_S800000x1_0 d) (mulf (broadcastInDim S800000x256 ![0, 1] bcast_S800000x1_S800000x256_0_1 (broadcastInDim S800000x1 ![0] bcast_S800000_S800000x1_0 nrm)) (Host.gather gather_S50000x256_S800000x1_S800000x256_1_0_n_n_0_1_1256 h (wrap s)))) (mulf (broadcastInDim S50000x256 ![0, 1] bcast_S50000x1_S50000x256_0_1 sn) h)) (broadcastInDim S50000x256 ![0, 1] bcast_S1x256_S50000x256_0_1 (broadcastInDim S1x256 ![1] bcast_S256_S1x256_1 b))

/-- A layer's aggregation from the edge list. -/
def conv (h : (⟨S50000x256, .f32⟩ : BufTy).Contents (Elt F)) (e : (⟨S2x800000, .i32⟩ : BufTy).Contents (Elt F))
    (b : (⟨S256, .f32⟩ : BufTy).Contents (Elt F)) : (⟨S50000x256, .f32⟩ : BufTy).Contents (Elt F) :=
  convCore h (src e) (dst e) (norm (src e) (dst e)) (selfn (dst e)) b

/-- max(h, 0). -/
def relu (h : (⟨S50000x256, .f32⟩ : BufTy).Contents (Elt F)) : (⟨S50000x256, .f32⟩ : BufTy).Contents (Elt F) :=
  maximumf h (broadcastInDim S50000x256 ![] bcast_S_S50000x256 (constant S_ .f32 0x00000000#32))

/-- The network with every linear layer a host dot product against the transposed weight. -/
def refOut (x0 : (⟨S50000x128, .f32⟩ : BufTy).Contents (Elt F)) (x1 : (⟨S2x800000, .i32⟩ : BufTy).Contents (Elt F))
    (x2 : (⟨S256x128, .f32⟩ : BufTy).Contents (Elt F)) (x3 : (⟨S256, .f32⟩ : BufTy).Contents (Elt F))
    (x4 : (⟨S256x256, .f32⟩ : BufTy).Contents (Elt F)) (x5 : (⟨S256, .f32⟩ : BufTy).Contents (Elt F))
    (x6 : (⟨S40x256, .f32⟩ : BufTy).Contents (Elt F)) (x7 : (⟨S40, .f32⟩ : BufTy).Contents (Elt F)) :
    (⟨S50000x40, .f32⟩ : BufTy).Contents (Elt F) :=
  addf (Host.dotGeneral dot_S50000x256_S256x40_S50000x40_1_0_0_1_n_n none
      (conv (Host.dotGeneral dot_S50000x256_S256x256_S50000x256_1_0_0_1_n_n none
          (relu (conv (Host.dotGeneral dot_S50000x128_S128x256_S50000x256_1_0_0_1_n_n none x0 (transpose S128x256 [1, 0] x2 transposes_S256x128_S128x256_1_0)) x1 x3))
          (transpose S256x256 [1, 0] x4 transposes_S256x256_S256x256_1_0)) x1 x5)
      (transpose S256x40 [1, 0] x6 transposes_S40x256_S256x40_1_0))
    (broadcastInDim S50000x40 ![0, 1] bcast_S1x40_S50000x40_0_1 (broadcastInDim S1x40 ![1] bcast_S40_S1x40_1 x7))

/-- A linear layer over the extended reals, entry by entry: row i of X against row j of W, plus b j. -/
def lin {n k o : Nat} (X : FVec Ideal ⟨2, ![n, k]⟩ .f32) (W : FVec Ideal ⟨2, ![o, k]⟩ .f32) (b : Fin o → EReal) :
    FVec Ideal ⟨2, ![n, o]⟩ .f32 :=
  fun i => (∑ c : Fin k, X (ix2 (i 0) c) * W (ix2 (i 1) c)) + b (i 1)

/-- The network with every linear layer read entry by entry. -/
def linOut (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S40x256, .f32⟩ : BufTy).Contents (Elt Ideal)) (x7 : (⟨S40, .f32⟩ : BufTy).Contents (Elt Ideal)) :
    (⟨S50000x40, .f32⟩ : BufTy).Contents (Elt Ideal) :=
  lin (conv (lin (relu (conv (lin x0 x2 fun _ => 0) x1 x3)) x4 fun _ => 0) x1 x5) x6 fun j => x7 (ix1 j)

end Cert.Gcn

end
-- ==== Proof.KernelHost.lean ====
/-
  The kernel program's host stretches, read. Between the launch and the three row-tiled linear layers the program runs
  the same gather / scatter-add aggregation the specification names; here each buffer a later step reads is identified,
  at every boundary between stretches, with the specification's term for it: the edge rows, the edge weights
  dinv(s)·dinv(d), the self-loop weights dinv², the zero bias row, the aggregated layers, and the argument arrays, which no
  stretch writes. A linear layer's result array is left as the pipeline's folded write-backs; the next module reads it.
-/
import proofs.«180855_j39410619908620_1_alg».proof.Proof.Gen.KernelIdeal.Frame
import proofs.«180855_j39410619908620_1_alg».proof.Proof.Spec
import Idealize.ShloMosaic.Lib.StableHlo.Run

noncomputable section

namespace Cert.KernelIdeal.KHost

open Cert.KernelIdeal Cert.KernelIdeal.Gen Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## After the first stretch (the edge data, the zero bias row) -/

theorem W1_v1 (c : Dev nD) : (W1 m ρ c (Proc.devRef .tc main_v1)) = Cert.Gcn.src (m ((c : Thread nD τ).loc main_arg1)) := by
  show StableHlo.after hostOps0 (W0 m ρ c) (Proc.devRef .tc main_v1) = _
  after_results_simp
  rfl
theorem W1_v3 (c : Dev nD) : (W1 m ρ c (Proc.devRef .tc main_v3)) = Cert.Gcn.dst (m ((c : Thread nD τ).loc main_arg1)) := by
  show StableHlo.after hostOps0 (W0 m ρ c) (Proc.devRef .tc main_v3) = _
  after_results_simp
  rfl
theorem W1_v25 (c : Dev nD) : (W1 m ρ c (Proc.devRef .tc main_v25)) = Cert.Gcn.norm (Cert.Gcn.src (m ((c : Thread nD τ).loc main_arg1))) (Cert.Gcn.dst (m ((c : Thread nD τ).loc main_arg1))) := by
  show StableHlo.after hostOps0 (W0 m ρ c) (Proc.devRef .tc main_v25) = _
  after_results_simp
  rfl
theorem W1_v27 (c : Dev nD) : (W1 m ρ c (Proc.devRef .tc main_v27)) = Cert.Gcn.selfn (Cert.Gcn.dst (m ((c : Thread nD τ).loc main_arg1))) := by
  show StableHlo.after hostOps0 (W0 m ρ c) (Proc.devRef .tc main_v27) = _
  after_results_simp
  rfl
theorem W1_v29 (c : Dev nD) : (W1 m ρ c (Proc.devRef .tc main_v29)) = (shapeCast S1x256 (broadcastInDim S256 ![] bcast_S_S256 (constant (F := F) S_ .f32 0x00000000#32)) shapeCasts_S256_S1x256) := by
  show StableHlo.after hostOps0 (W0 m ρ c) (Proc.devRef .tc main_v29) = _
  after_results_simp
  rfl
theorem W1_arg0 (c : Dev nD) : (W1 m ρ c (Proc.devRef .tc main_arg0)) = (m ((c : Thread nD τ).loc main_arg0)) := by
  show StableHlo.after hostOps0 (W0 m ρ c) (Proc.devRef .tc main_arg0) = _
  after_results_simp
theorem W1_arg2 (c : Dev nD) : (W1 m ρ c (Proc.devRef .tc main_arg2)) = (m ((c : Thread nD τ).loc main_arg2)) := by
  show StableHlo.after hostOps0 (W0 m ρ c) (Proc.devRef .tc main_arg2) = _
  after_results_simp
theorem W1_arg3 (c : Dev nD) : (W1 m ρ c (Proc.devRef .tc main_arg3)) = (m ((c : Thread nD τ).loc main_arg3)) := by
  show StableHlo.after hostOps0 (W0 m ρ c) (Proc.devRef .tc main_arg3) = _
  after_results_simp
theorem W1_arg4 (c : Dev nD) : (W1 m ρ c (Proc.devRef .tc main_arg4)) = (m ((c : Thread nD τ).loc main_arg4)) := by
  show StableHlo.after hostOps0 (W0 m ρ c) (Proc.devRef .tc main_arg4) = _
  after_results_simp
theorem W1_arg5 (c : Dev nD) : (W1 m ρ c (Proc.devRef .tc main_arg5)) = (m ((c : Thread nD τ).loc main_arg5)) := by
  show StableHlo.after hostOps0 (W0 m ρ c) (Proc.devRef .tc main_arg5) = _
  after_results_simp
theorem W1_arg6 (c : Dev nD) : (W1 m ρ c (Proc.devRef .tc main_arg6)) = (m ((c : Thread nD τ).loc main_arg6)) := by
  show StableHlo.after hostOps0 (W0 m ρ c) (Proc.devRef .tc main_arg6) = _
  after_results_simp
theorem W1_arg7 (c : Dev nD) : (W1 m ρ c (Proc.devRef .tc main_arg7)) = (m ((c : Thread nD τ).loc main_arg7)) := by
  show StableHlo.after hostOps0 (W0 m ρ c) (Proc.devRef .tc main_arg7) = _
  after_results_simp

/-! ## After the first linear layer: its result array, every other buffer as before -/

theorem W2_v30 (c : Dev nD) : (W2 m ρ c (Proc.devRef .tc main_v30)) = (dat0 (V1 m ρ) c).arrAt 3 cfg0.N := W2_arr m ρ c 3
theorem W2_v1 (c : Dev nD) : (W2 m ρ c (Proc.devRef .tc main_v1)) = (W1 m ρ c (Proc.devRef .tc main_v1)) := W2_of_ne m ρ c main_v1 (by decide)
theorem W2_v3 (c : Dev nD) : (W2 m ρ c (Proc.devRef .tc main_v3)) = (W1 m ρ c (Proc.devRef .tc main_v3)) := W2_of_ne m ρ c main_v3 (by decide)
theorem W2_v25 (c : Dev nD) : (W2 m ρ c (Proc.devRef .tc main_v25)) = (W1 m ρ c (Proc.devRef .tc main_v25)) := W2_of_ne m ρ c main_v25 (by decide)
theorem W2_v27 (c : Dev nD) : (W2 m ρ c (Proc.devRef .tc main_v27)) = (W1 m ρ c (Proc.devRef .tc main_v27)) := W2_of_ne m ρ c main_v27 (by decide)
theorem W2_arg3 (c : Dev nD) : (W2 m ρ c (Proc.devRef .tc main_arg3)) = (W1 m ρ c (Proc.devRef .tc main_arg3)) := W2_of_ne m ρ c main_arg3 (by decide)
theorem W2_arg4 (c : Dev nD) : (W2 m ρ c (Proc.devRef .tc main_arg4)) = (W1 m ρ c (Proc.devRef .tc main_arg4)) := W2_of_ne m ρ c main_arg4 (by decide)
theorem W2_arg5 (c : Dev nD) : (W2 m ρ c (Proc.devRef .tc main_arg5)) = (W1 m ρ c (Proc.devRef .tc main_arg5)) := W2_of_ne m ρ c main_arg5 (by decide)
theorem W2_arg6 (c : Dev nD) : (W2 m ρ c (Proc.devRef .tc main_arg6)) = (W1 m ρ c (Proc.devRef .tc main_arg6)) := W2_of_ne m ρ c main_arg6 (by decide)
theorem W2_arg7 (c : Dev nD) : (W2 m ρ c (Proc.devRef .tc main_arg7)) = (W1 m ρ c (Proc.devRef .tc main_arg7)) := W2_of_ne m ρ c main_arg7 (by decide)

/-! ## The first aggregation, the rectifier and the second zero row -/

theorem W5_v50 (c : Dev nD) : (W5 m ρ c (Proc.devRef .tc main_v50)) = Cert.Gcn.relu (Cert.Gcn.convCore (W2 m ρ c (Proc.devRef .tc main_v30)) (W2 m ρ c (Proc.devRef .tc main_v1)) (W2 m ρ c (Proc.devRef .tc main_v3)) (W2 m ρ c (Proc.devRef .tc main_v25)) (W2 m ρ c (Proc.devRef .tc main_v27)) (W2 m ρ c (Proc.devRef .tc main_arg3))) := by
  show StableHlo.after hostOps1_2 (StableHlo.after hostOps1_1 (StableHlo.after hostOps1 (W2 m ρ c))) (Proc.devRef .tc main_v50) = _
  after_results_simp
  rfl
theorem W5_v52 (c : Dev nD) : (W5 m ρ c (Proc.devRef .tc main_v52)) = (shapeCast S1x256 (broadcastInDim S256 ![] bcast_S_S256 (constant (F := F) S_ .f32 0x00000000#32)) shapeCasts_S256_S1x256) := by
  show StableHlo.after hostOps1_2 (StableHlo.after hostOps1_1 (StableHlo.after hostOps1 (W2 m ρ c))) (Proc.devRef .tc main_v52) = _
  after_results_simp
  rfl
theorem W5_v1 (c : Dev nD) : (W5 m ρ c (Proc.devRef .tc main_v1)) = (W2 m ρ c (Proc.devRef .tc main_v1)) := by
  show StableHlo.after hostOps1_2 (StableHlo.after hostOps1_1 (StableHlo.after hostOps1 (W2 m ρ c))) (Proc.devRef .tc main_v1) = _
  after_results_simp
theorem W5_v3 (c : Dev nD) : (W5 m ρ c (Proc.devRef .tc main_v3)) = (W2 m ρ c (Proc.devRef .tc main_v3)) := by
  show StableHlo.after hostOps1_2 (StableHlo.after hostOps1_1 (StableHlo.after hostOps1 (W2 m ρ c))) (Proc.devRef .tc main_v3) = _
  after_results_simp
theorem W5_v25 (c : Dev nD) : (W5 m ρ c (Proc.devRef .tc main_v25)) = (W2 m ρ c (Proc.devRef .tc main_v25)) := by
  show StableHlo.after hostOps1_2 (StableHlo.after hostOps1_1 (StableHlo.after hostOps1 (W2 m ρ c))) (Proc.devRef .tc main_v25) = _
  after_results_simp
theorem W5_v27 (c : Dev nD) : (W5 m ρ c (Proc.devRef .tc main_v27)) = (W2 m ρ c (Proc.devRef .tc main_v27)) := by
  show StableHlo.after hostOps1_2 (StableHlo.after hostOps1_1 (StableHlo.after hostOps1 (W2 m ρ c))) (Proc.devRef .tc main_v27) = _
  after_results_simp
theorem W5_arg4 (c : Dev nD) : (W5 m ρ c (Proc.devRef .tc main_arg4)) = (W2 m ρ c (Proc.devRef .tc main_arg4)) := by
  show StableHlo.after hostOps1_2 (StableHlo.after hostOps1_1 (StableHlo.after hostOps1 (W2 m ρ c))) (Proc.devRef .tc main_arg4) = _
  after_results_simp
theorem W5_arg5 (c : Dev nD) : (W5 m ρ c (Proc.devRef .tc main_arg5)) = (W2 m ρ c (Proc.devRef .tc main_arg5)) := by
  show StableHlo.after hostOps1_2 (StableHlo.after hostOps1_1 (StableHlo.after hostOps1 (W2 m ρ c))) (Proc.devRef .tc main_arg5) = _
  after_results_simp
theorem W5_arg6 (c : Dev nD) : (W5 m ρ c (Proc.devRef .tc main_arg6)) = (W2 m ρ c (Proc.devRef .tc main_arg6)) := by
  show StableHlo.after hostOps1_2 (StableHlo.after hostOps1_1 (StableHlo.after hostOps1 (W2 m ρ c))) (Proc.devRef .tc main_arg6) = _
  after_results_simp
theorem W5_arg7 (c : Dev nD) : (W5 m ρ c (Proc.devRef .tc main_arg7)) = (W2 m ρ c (Proc.devRef .tc main_arg7)) := by
  show StableHlo.after hostOps1_2 (StableHlo.after hostOps1_1 (StableHlo.after hostOps1 (W2 m ρ c))) (Proc.devRef .tc main_arg7) = _
  after_results_simp

/-! ## After the second linear layer -/

theorem W6_v53 (c : Dev nD) : (W6 m ρ c (Proc.devRef .tc main_v53)) = (dat1 (V5 m ρ) c).arrAt 3 cfg1.N := W6_arr m ρ c 3
theorem W6_v1 (c : Dev nD) : (W6 m ρ c (Proc.devRef .tc main_v1)) = (W5 m ρ c (Proc.devRef .tc main_v1)) := W6_of_ne m ρ c main_v1 (by decide)
theorem W6_v3 (c : Dev nD) : (W6 m ρ c (Proc.devRef .tc main_v3)) = (W5 m ρ c (Proc.devRef .tc main_v3)) := W6_of_ne m ρ c main_v3 (by decide)
theorem W6_v25 (c : Dev nD) : (W6 m ρ c (Proc.devRef .tc main_v25)) = (W5 m ρ c (Proc.devRef .tc main_v25)) := W6_of_ne m ρ c main_v25 (by decide)
theorem W6_v27 (c : Dev nD) : (W6 m ρ c (Proc.devRef .tc main_v27)) = (W5 m ρ c (Proc.devRef .tc main_v27)) := W6_of_ne m ρ c main_v27 (by decide)
theorem W6_arg5 (c : Dev nD) : (W6 m ρ c (Proc.devRef .tc main_arg5)) = (W5 m ρ c (Proc.devRef .tc main_arg5)) := W6_of_ne m ρ c main_arg5 (by decide)
theorem W6_arg6 (c : Dev nD) : (W6 m ρ c (Proc.devRef .tc main_arg6)) = (W5 m ρ c (Proc.devRef .tc main_arg6)) := W6_of_ne m ρ c main_arg6 (by decide)
theorem W6_arg7 (c : Dev nD) : (W6 m ρ c (Proc.devRef .tc main_arg7)) = (W5 m ρ c (Proc.devRef .tc main_arg7)) := W6_of_ne m ρ c main_arg7 (by decide)

/-! ## The second aggregation and the last layer's bias row -/

theorem W7_v72 (c : Dev nD) : (W7 m ρ c (Proc.devRef .tc main_v72)) = Cert.Gcn.convCore (W6 m ρ c (Proc.devRef .tc main_v53)) (W6 m ρ c (Proc.devRef .tc main_v1)) (W6 m ρ c (Proc.devRef .tc main_v3)) (W6 m ρ c (Proc.devRef .tc main_v25)) (W6 m ρ c (Proc.devRef .tc main_v27)) (W6 m ρ c (Proc.devRef .tc main_arg5)) := by
  show StableHlo.after hostOps2 (W6 m ρ c) (Proc.devRef .tc main_v72) = _
  after_results_simp
  rfl
theorem W7_v73 (c : Dev nD) : (W7 m ρ c (Proc.devRef .tc main_v73)) = shapeCast S1x40 (W6 m ρ c (Proc.devRef .tc main_arg7)) shapeCasts_S40_S1x40 := by
  show StableHlo.after hostOps2 (W6 m ρ c) (Proc.devRef .tc main_v73) = _
  after_results_simp
  rfl
theorem W7_arg6 (c : Dev nD) : (W7 m ρ c (Proc.devRef .tc main_arg6)) = (W6 m ρ c (Proc.devRef .tc main_arg6)) := by
  show StableHlo.after hostOps2 (W6 m ρ c) (Proc.devRef .tc main_arg6) = _
  after_results_simp

/-! ## After the last linear layer: the result -/

theorem W8_v74 (c : Dev nD) : (W8 m ρ c (Proc.devRef .tc main_v74)) = (dat2 (V7 m ρ) c).arrAt 3 cfg2.N := W8_arr m ρ c 3

end Cert.KernelIdeal.KHost

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibLinearBody.lean ====
/-
  A LINEAR LAYER'S BLOCK READ AT AN ENTRY. The body  x · wᵀ + b  of a dense layer — the rows x (m × k) and the weight
  w (n × k) both narrowed to bf16, the weight transposed, the product accumulated into the zero splat, and the bias row b
  (1 × n) cast to its own shape and broadcast down the m rows — is, at the ideal values and at entry (a, j), the sum over
  the contracted coordinate c of x(a, c) · w(j, c), plus b(0, j): the narrowing is the identity on the extended reals,
  the transpose reads (c, j) at (j, c), the product into zero is the plain sum, and the broadcast reads row 0.
-/
import Idealize.ShloMosaic.Lib.ValueIdx
import Idealize.ShloMosaic.Lib.Pipeline.Value
import Idealize.ShloMosaic.PureOps.Ideal.Laws
import proofs.«180855_j39410619908620_1_alg».proof.Proof.LibPlainMatmul

open scoped BigOperators

noncomputable section

namespace Idealize.ShloMosaic.LinearBody

open Idealize.ShloMosaic Idealize.ShloMosaic.ValueIdx

/-- The dense layer's body at entry (a, j): row a of X against row j of W, plus the bias row's entry j. -/
theorem body_apply {m k n : Nat} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = PlainMatmul.dims w)
    (hb : FTy.bits .bf16 < FTy.bits .f32) (ht : (⟨2, ![n, k]⟩ : Shape).Transposes [1, 0] ⟨2, ![k, n]⟩)
    (hs : (⟨2, ![1, n]⟩ : Shape).ShapeCasts ⟨2, ![1, n]⟩) (hbc : (⟨2, ![1, n]⟩ : Shape).Broadcasts ⟨2, ![m, n]⟩)
    (X : FVec Ideal ⟨2, ![m, k]⟩ .f32) (W : FVec Ideal ⟨2, ![n, k]⟩ .f32) (B : FVec Ideal ⟨2, ![1, n]⟩ .f32)
    (a : Fin m) (j : Fin n) :
    addf (matmul d none (truncf .bf16 X hb) (transpose ⟨2, ![k, n]⟩ [1, 0] (truncf .bf16 W hb) ht)
            (constant ⟨2, ![m, n]⟩ .f32 0x00000000#32))
         (broadcastTo ⟨2, ![m, n]⟩ (shapeCast ⟨2, ![1, n]⟩ B hs) hbc) (ix2 a j)
      = (∑ c : Fin k, X (ix2 a c) * W (ix2 j c)) + B (ix2 (⟨0, Nat.one_pos⟩ : Fin 1) j) := by
  rw [addf_apply, PlainMatmul.matmul_zero_apply d w hd]
  congr 1
  · refine Finset.sum_congr rfl fun c _ => ?_
    rw [truncf_apply]
    refine congrArg _ ?_
    refine (transpose_apply [1, 0] (truncf .bf16 W hb) ht (ix2 c j) (ix2 j c) fun b => ?_).trans ?_
    · match b with
      | ⟨0, _⟩ => rfl
      | ⟨1, _⟩ => rfl
    · rfl
  · rw [shapeCast_self]
    refine broadcastTo_apply B hbc (ix2 a j) (ix2 (⟨0, Nat.one_pos⟩ : Fin 1) j) fun ax => ?_
    match ax with
    | ⟨0, _⟩ => exact (if_pos rfl).symm
    | ⟨1, _⟩ =>
      show j.val = if n = 1 then 0 else j.val
      by_cases hn : n = 1
      · rw [if_pos hn]; have := j.isLt; omega
      · rw [if_neg hn]

end Idealize.ShloMosaic.LinearBody

end
-- ==== Proof.Region0.lean ====
/-
  REGION 0 OF THE KERNEL, READ AS ONE ARRAY. The first dense layer runs over ten blocks of 5000 rows: point t reads rows
  5000·t … 5000·t + 4999 of the input, the whole weight and the whole bias row, and writes back the same rows of the
  result. Each block it writes is the layer's body  x · wᵀ + b  of the blocks it read, so entry (i, j) of the array the
  region leaves is  Σ_c x(i, c) · w(j, c) + b(0, j) : the linear layer of the specification, entry by entry.
-/
import proofs.«180855_j39410619908620_1_alg».proof.Proof.Gen.KernelIdeal.Frame
import proofs.«180855_j39410619908620_1_alg».proof.Proof.Spec
import proofs.«180855_j39410619908620_1_alg».proof.Proof.LibLinearBody
import Idealize.ShloMosaic.Lib.Pipeline.Value
import Idealize.ShloMosaic.Lib.ValueIdx

open scoped BigOperators

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, however spelt. -/
theorem hz : (![0, 0] : Fin 2 → Nat) = fun _ => 0 :=
  funext fun a => match a with | ⟨0, _⟩ => rfl | ⟨1, _⟩ => rfl

/-- The index maps over the grid: the input's and the result's row block is the point, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t is rows 5000·t … 5000·t + 4999 of the input array. -/
theorem iblk_x (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : Vec Ideal S50000x128 .f32) k := by
  obtain ⟨e0, e1, -⟩ := idx_facts t
  unfold iblk0
  rw [View.read_apply]
  show V c main_arg0 _ = V c main_arg0 _
  refine congrArg _ ?_
  funext ax
  apply Fin.ext
  match ax with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weight's block at every point is the whole weight. -/
theorem iblk_w (c : Dev nD) (t : Fin cfg0.N) (x : S256x128.Idx) :
    (iblk0 V c 1 t : Vec Ideal S256x128 .f32) x = (V c main_arg2 : Vec Ideal S256x128 .f32) x := by
  obtain ⟨-, -, e0, e1, -⟩ := idx_facts t
  unfold iblk0
  rw [View.read_apply]
  show V c main_arg2 _ = V c main_arg2 _
  refine congrArg _ ?_
  funext ax
  apply Fin.ext
  match ax with
  | ⟨0, _⟩ => show win0_1.index t (0 : Fin 2) * 256 + 1 * (x 0).val = (x 0).val; rw [e0]; omega
  | ⟨1, _⟩ => show win0_1.index t (1 : Fin 2) * 128 + 1 * (x 1).val = (x 1).val; rw [e1]; omega

/-- The bias row's block at every point is the whole bias row. -/
theorem iblk_b (c : Dev nD) (t : Fin cfg0.N) (x : S1x256.Idx) :
    (iblk0 V c 2 t : Vec Ideal S1x256 .f32) x = (V c main_v29 : Vec Ideal S1x256 .f32) x := by
  obtain ⟨-, -, -, -, e0, e1, -⟩ := idx_facts t
  unfold iblk0
  rw [View.read_apply]
  show V c main_v29 _ = V c main_v29 _
  refine congrArg _ ?_
  funext ax
  apply Fin.ext
  match ax with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The body's arithmetic at entry (a, j) of a block: row a of the rows read against row j of the weight, plus the bias row's entry j. -/
theorem pay_apply (x : Vec Ideal S5000x128 .f32) (w : Vec Ideal S256x128 .f32) (b : Vec Ideal S1x256 .f32) (a : Fin 5000) (j : Fin 256) :
    k0_pay1 x w b (ix2 a j) = (∑ c : Fin 128, x (ix2 a c) * w (ix2 j c)) + b (ix2 (⟨0, Nat.one_pos⟩ : Fin 1) j) := by
  unfold k0_pay1
  exact LinearBody.body_apply dot_S5000x128_S128x256_S5000x256_1_0_0_1_n_n Facts₀.dot_S5000x128_S128x256_S5000x256_1_0_0_1_n_n_wf rfl bitsLt_bf16_f32 transposes_S256x128_p1_0_S128x256 shapeCasts_S1x256_S1x256 broadcasts_S1x256_S5000x256 x w b a j

/-- The array the region leaves: the linear layer of the arrays it finds. -/
abbrev G (c : Dev nD) : Vec Ideal S50000x256 .f32 :=
  Cert.Gcn.lin (n := 50000) (k := 128) (o := 256) (V c main_arg0) (V c main_arg2) (fun j => (V c main_v29 : Vec Ideal S1x256 .f32) (ix2 0 j))

/-- What point t writes back is block t of the linear layer. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S256x128) hz, View.ld_unit_zero (S := S1x256) hz]
  funext y
  obtain ⟨a, j, rfl⟩ : ∃ (a : Fin 5000) (j : Fin 256), y = ix2 a j := ⟨y 0, y 1, eq_ix2 y⟩
  obtain ⟨-, -, -, -, -, -, e0, e1⟩ := idx_facts t
  refine (pay_apply (iblk0 V c 0 t) (iblk0 V c 1 t) (iblk0 V c 2 t) a j).trans ?_
  have ht : t.val < 10 := lt_of_lt_of_eq t.isLt N_0
  obtain ⟨r, hr⟩ : ∃ r : Fin 50000, r.val = 5000 * t.val + a.val :=
    ⟨⟨5000 * t.val + a.val, by have := a.isLt; omega⟩, rfl⟩
  have hemb : ((cfg0.win 3).blk t).view.emb (ix2 a j) = (ix2 r j : S50000x256.Idx) := by
    funext ax
    apply Fin.ext
    match ax with
    | ⟨0, _⟩ => show win0_3.index t (0 : Fin 2) * 5000 + 1 * a.val = r.val; rw [e0, hr]; omega
    | ⟨1, _⟩ => show win0_3.index t (1 : Fin 2) * 256 + 1 * j.val = j.val; rw [e1]; omega
  rw [View.read_apply]
  show _ = G V c (((cfg0.win 3).blk t).view.emb (ix2 a j))
  rw [hemb]
  refine congrArg₂ (· + ·) (Finset.sum_congr rfl fun c' _ => ?_) ?_
  · exact congrArg₂ (· * ·) (iblk_x V c t (ix2 a c') (ix2 r c') hr rfl) (iblk_w V c t (ix2 j c'))
  · exact iblk_b V c t (ix2 0 j)

/-- An index of the result array is in point t's block iff each coordinate is in the block's range on its axis. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v30).slice (win0_3.rect t)).set ↔ _
  rw [View.set_slice_whole, Rect.mem_set_unit]
  exact Iff.rfl

/-- The ten blocks cover the result array: row r lies in the block of point r / 5000, which writes back. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, htv⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, htv]; omega
  | ⟨1, _⟩ =>
    show win0_3.index t (1 : Fin 2) * 256 ≤ (i 1).val ∧ (i 1).val < win0_3.index t (1 : Fin 2) * 256 + 256
    rw [e1]; omega

/-- THE RESULT ARRAY after the region: the linear layer of the input, the weight and the bias row the region finds. -/
theorem final (c : Dev nD) :
    (dat0 (F := Ideal) V c).arrAt 3 cfg0.N
      = Cert.Gcn.lin (n := 50000) (k := 128) (o := 256) (V c main_arg0) (V c main_arg2) (fun j => (V c main_v29 : Vec Ideal S1x256 .f32) (ix2 0 j)) :=
  (dat0 V c).arrAt_eq_of_cover 3 (G V c) (fun t _ => flushed_eq V c t) (cover)

end Cert.KernelIdeal.Region0

end
-- ==== Proof.Region1.lean ====
/-
  REGION 1 OF THE KERNEL, READ AS ONE ARRAY. The second dense layer runs over ten blocks of 5000 rows: point t reads rows
  5000·t … 5000·t + 4999 of the input, the whole weight and the whole bias row, and writes back the same rows of the
  result. Each block it writes is the layer's body  x · wᵀ + b  of the blocks it read, so entry (i, j) of the array the
  region leaves is  Σ_c x(i, c) · w(j, c) + b(0, j) : the linear layer of the specification, entry by entry.
-/
import proofs.«180855_j39410619908620_1_alg».proof.Proof.Gen.KernelIdeal.Frame
import proofs.«180855_j39410619908620_1_alg».proof.Proof.Spec
import proofs.«180855_j39410619908620_1_alg».proof.Proof.LibLinearBody
import Idealize.ShloMosaic.Lib.Pipeline.Value
import Idealize.ShloMosaic.Lib.ValueIdx

open scoped BigOperators

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, however spelt. -/
theorem hz : (![0, 0] : Fin 2 → Nat) = fun _ => 0 :=
  funext fun a => match a with | ⟨0, _⟩ => rfl | ⟨1, _⟩ => rfl

/-- The index maps over the grid: the input's and the result's row block is the point, every other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point t is rows 5000·t … 5000·t + 4999 of the input array. -/
theorem iblk_x (c : Dev nD) (t : Fin cfg1.N) (x : S5000x256.Idx) (k : S50000x256.Idx)
    (hk0 : (k 0).val = 5000 * t.val + (x 0).val) (hk1 : (k 1).val = (x 1).val) :
    (iblk1 V c 0 t : Vec Ideal S5000x256 .f32) x = (V c main_v50 : Vec Ideal S50000x256 .f32) k := by
  obtain ⟨e0, e1, -⟩ := idx_facts t
  unfold iblk1
  rw [View.read_apply]
  show V c main_v50 _ = V c main_v50 _
  refine congrArg _ ?_
  funext ax
  apply Fin.ext
  match ax with
  | ⟨0, _⟩ => show win1_0.index t (0 : Fin 2) * 5000 + 1 * (x 0).val = (k 0).val; rw [e0, hk0]; omega
  | ⟨1, _⟩ => show win1_0.index t (1 : Fin 2) * 256 + 1 * (x 1).val = (k 1).val; rw [e1, hk1]; omega

/-- The weight's block at every point is the whole weight. -/
theorem iblk_w (c : Dev nD) (t : Fin cfg1.N) (x : S256x256.Idx) :
    (iblk1 V c 1 t : Vec Ideal S256x256 .f32) x = (V c main_arg4 : Vec Ideal S256x256 .f32) x := by
  obtain ⟨-, -, e0, e1, -⟩ := idx_facts t
  unfold iblk1
  rw [View.read_apply]
  show V c main_arg4 _ = V c main_arg4 _
  refine congrArg _ ?_
  funext ax
  apply Fin.ext
  match ax with
  | ⟨0, _⟩ => show win1_1.index t (0 : Fin 2) * 256 + 1 * (x 0).val = (x 0).val; rw [e0]; omega
  | ⟨1, _⟩ => show win1_1.index t (1 : Fin 2) * 256 + 1 * (x 1).val = (x 1).val; rw [e1]; omega

/-- The bias row's block at every point is the whole bias row. -/
theorem iblk_b (c : Dev nD) (t : Fin cfg1.N) (x : S1x256.Idx) :
    (iblk1 V c 2 t : Vec Ideal S1x256 .f32) x = (V c main_v52 : Vec Ideal S1x256 .f32) x := by
  obtain ⟨-, -, -, -, e0, e1, -⟩ := idx_facts t
  unfold iblk1
  rw [View.read_apply]
  show V c main_v52 _ = V c main_v52 _
  refine congrArg _ ?_
  funext ax
  apply Fin.ext
  match ax with
  | ⟨0, _⟩ => show win1_2.index t (0 : Fin 2) * 1 + 1 * (x 0).val = (x 0).val; rw [e0]; omega
  | ⟨1, _⟩ => show win1_2.index t (1 : Fin 2) * 256 + 1 * (x 1).val = (x 1).val; rw [e1]; omega

/-- The body's arithmetic at entry (a, j) of a block: row a of the rows read against row j of the weight, plus the bias row's entry j. -/
theorem pay_apply (x : Vec Ideal S5000x256 .f32) (w : Vec Ideal S256x256 .f32) (b : Vec Ideal S1x256 .f32) (a : Fin 5000) (j : Fin 256) :
    k1_pay1 x w b (ix2 a j) = (∑ c : Fin 256, x (ix2 a c) * w (ix2 j c)) + b (ix2 (⟨0, Nat.one_pos⟩ : Fin 1) j) := by
  unfold k1_pay1
  simp only [shapeCast_self x shapeCasts_S5000x256_S5000x256]
  exact LinearBody.body_apply dot_S5000x256_S256x256_S5000x256_1_0_0_1_n_n Facts₀.dot_S5000x256_S256x256_S5000x256_1_0_0_1_n_n_wf rfl bitsLt_bf16_f32 transposes_S256x256_p1_0_S256x256 shapeCasts_S1x256_S1x256 broadcasts_S1x256_S5000x256 x w b a j

/-- The array the region leaves: the linear layer of the arrays it finds. -/
abbrev G (c : Dev nD) : Vec Ideal S50000x256 .f32 :=
  Cert.Gcn.lin (n := 50000) (k := 256) (o := 256) (V c main_v50) (V c main_arg4) (fun j => (V c main_v52 : Vec Ideal S1x256 .f32) (ix2 0 j))

/-- What point t writes back is block t of the linear layer. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x256) hz, View.ld_unit_zero (S := S1x256) hz]
  funext y
  obtain ⟨a, j, rfl⟩ : ∃ (a : Fin 5000) (j : Fin 256), y = ix2 a j := ⟨y 0, y 1, eq_ix2 y⟩
  obtain ⟨-, -, -, -, -, -, e0, e1⟩ := idx_facts t
  refine (pay_apply (iblk1 V c 0 t) (iblk1 V c 1 t) (iblk1 V c 2 t) a j).trans ?_
  have ht : t.val < 10 := lt_of_lt_of_eq t.isLt N_1
  obtain ⟨r, hr⟩ : ∃ r : Fin 50000, r.val = 5000 * t.val + a.val :=
    ⟨⟨5000 * t.val + a.val, by have := a.isLt; omega⟩, rfl⟩
  have hemb : ((cfg1.win 3).blk t).view.emb (ix2 a j) = (ix2 r j : S50000x256.Idx) := by
    funext ax
    apply Fin.ext
    match ax with
    | ⟨0, _⟩ => show win1_3.index t (0 : Fin 2) * 5000 + 1 * a.val = r.val; rw [e0, hr]; omega
    | ⟨1, _⟩ => show win1_3.index t (1 : Fin 2) * 256 + 1 * j.val = j.val; rw [e1]; omega
  rw [View.read_apply]
  show _ = G V c (((cfg1.win 3).blk t).view.emb (ix2 a j))
  rw [hemb]
  refine congrArg₂ (· + ·) (Finset.sum_congr rfl fun c' _ => ?_) ?_
  · exact congrArg₂ (· * ·) (iblk_x V c t (ix2 a c') (ix2 r c') hr rfl) (iblk_w V c t (ix2 j c'))
  · exact iblk_b V c t (ix2 0 j)

/-- An index of the result array is in point t's block iff each coordinate is in the block's range on its axis. -/
theorem mem_blk (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v53).slice (win1_3.rect t)).set ↔ _
  rw [View.set_slice_whole, Rect.mem_set_unit]
  exact Iff.rfl

/-- The ten blocks cover the result array: row r lies in the block of point r / 5000, which writes back. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, htv⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e0, htv]; omega
  | ⟨1, _⟩ =>
    show win1_3.index t (1 : Fin 2) * 256 ≤ (i 1).val ∧ (i 1).val < win1_3.index t (1 : Fin 2) * 256 + 256
    rw [e1]; omega

/-- THE RESULT ARRAY after the region: the linear layer of the input, the weight and the bias row the region finds. -/
theorem final (c : Dev nD) :
    (dat1 (F := Ideal) V c).arrAt 3 cfg1.N
      = Cert.Gcn.lin (n := 50000) (k := 256) (o := 256) (V c main_v50) (V c main_arg4) (fun j => (V c main_v52 : Vec Ideal S1x256 .f32) (ix2 0 j)) :=
  (dat1 V c).arrAt_eq_of_cover 3 (G V c) (fun t _ => flushed_eq V c t) (cover)

end Cert.KernelIdeal.Region1

end
-- ==== Proof.Region2.lean ====
/-
  REGION 2 OF THE KERNEL, READ AS ONE ARRAY. The third dense layer runs over ten blocks of 5000 rows: point t reads rows
  5000·t … 5000·t + 4999 of the input, the whole weight and the whole bias row, and writes back the same rows of the
  result. Each block it writes is the layer's body  x · wᵀ + b  of the blocks it read, so entry (i, j) of the array the
  region leaves is  Σ_c x(i, c) · w(j, c) + b(0, j) : the linear layer of the specification, entry by entry.
-/
import proofs.«180855_j39410619908620_1_alg».proof.Proof.Gen.KernelIdeal.Frame
import proofs.«180855_j39410619908620_1_alg».proof.Proof.Spec
import proofs.«180855_j39410619908620_1_alg».proof.Proof.LibLinearBody
import Idealize.ShloMosaic.Lib.Pipeline.Value
import Idealize.ShloMosaic.Lib.ValueIdx

open scoped BigOperators

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, however spelt. -/
theorem hz : (![0, 0] : Fin 2 → Nat) = fun _ => 0 :=
  funext fun a => match a with | ⟨0, _⟩ => rfl | ⟨1, _⟩ => rfl

/-- The index maps over the grid: the input's and the result's row block is the point, every other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input's block at point t is rows 5000·t … 5000·t + 4999 of the input array. -/
theorem iblk_x (c : Dev nD) (t : Fin cfg2.N) (x : S5000x256.Idx) (k : S50000x256.Idx)
    (hk0 : (k 0).val = 5000 * t.val + (x 0).val) (hk1 : (k 1).val = (x 1).val) :
    (iblk2 V c 0 t : Vec Ideal S5000x256 .f32) x = (V c main_v72 : Vec Ideal S50000x256 .f32) k := by
  obtain ⟨e0, e1, -⟩ := idx_facts t
  unfold iblk2
  rw [View.read_apply]
  show V c main_v72 _ = V c main_v72 _
  refine congrArg _ ?_
  funext ax
  apply Fin.ext
  match ax with
  | ⟨0, _⟩ => show win2_0.index t (0 : Fin 2) * 5000 + 1 * (x 0).val = (k 0).val; rw [e0, hk0]; omega
  | ⟨1, _⟩ => show win2_0.index t (1 : Fin 2) * 256 + 1 * (x 1).val = (k 1).val; rw [e1, hk1]; omega

/-- The weight's block at every point is the whole weight. -/
theorem iblk_w (c : Dev nD) (t : Fin cfg2.N) (x : S40x256.Idx) :
    (iblk2 V c 1 t : Vec Ideal S40x256 .f32) x = (V c main_arg6 : Vec Ideal S40x256 .f32) x := by
  obtain ⟨-, -, e0, e1, -⟩ := idx_facts t
  unfold iblk2
  rw [View.read_apply]
  show V c main_arg6 _ = V c main_arg6 _
  refine congrArg _ ?_
  funext ax
  apply Fin.ext
  match ax with
  | ⟨0, _⟩ => show win2_1.index t (0 : Fin 2) * 40 + 1 * (x 0).val = (x 0).val; rw [e0]; omega
  | ⟨1, _⟩ => show win2_1.index t (1 : Fin 2) * 256 + 1 * (x 1).val = (x 1).val; rw [e1]; omega

/-- The bias row's block at every point is the whole bias row. -/
theorem iblk_b (c : Dev nD) (t : Fin cfg2.N) (x : S1x40.Idx) :
    (iblk2 V c 2 t : Vec Ideal S1x40 .f32) x = (V c main_v73 : Vec Ideal S1x40 .f32) x := by
  obtain ⟨-, -, -, -, e0, e1, -⟩ := idx_facts t
  unfold iblk2
  rw [View.read_apply]
  show V c main_v73 _ = V c main_v73 _
  refine congrArg _ ?_
  funext ax
  apply Fin.ext
  match ax with
  | ⟨0, _⟩ => show win2_2.index t (0 : Fin 2) * 1 + 1 * (x 0).val = (x 0).val; rw [e0]; omega
  | ⟨1, _⟩ => show win2_2.index t (1 : Fin 2) * 40 + 1 * (x 1).val = (x 1).val; rw [e1]; omega

/-- The body's arithmetic at entry (a, j) of a block: row a of the rows read against row j of the weight, plus the bias row's entry j. -/
theorem pay_apply (x : Vec Ideal S5000x256 .f32) (w : Vec Ideal S40x256 .f32) (b : Vec Ideal S1x40 .f32) (a : Fin 5000) (j : Fin 40) :
    k2_pay1 x w b (ix2 a j) = (∑ c : Fin 256, x (ix2 a c) * w (ix2 j c)) + b (ix2 (⟨0, Nat.one_pos⟩ : Fin 1) j) := by
  unfold k2_pay1
  simp only [shapeCast_self x shapeCasts_S5000x256_S5000x256]
  exact LinearBody.body_apply dot_S5000x256_S256x40_S5000x40_1_0_0_1_n_n Facts₀.dot_S5000x256_S256x40_S5000x40_1_0_0_1_n_n_wf rfl bitsLt_bf16_f32 transposes_S40x256_p1_0_S256x40 shapeCasts_S1x40_S1x40 broadcasts_S1x40_S5000x40 x w b a j

/-- The array the region leaves: the linear layer of the arrays it finds. -/
abbrev G (c : Dev nD) : Vec Ideal S50000x40 .f32 :=
  Cert.Gcn.lin (n := 50000) (k := 256) (o := 40) (V c main_v72) (V c main_arg6) (fun j => (V c main_v73 : Vec Ideal S1x40 .f32) (ix2 0 j))

/-- What point t writes back is block t of the linear layer. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x256) hz, View.ld_unit_zero (S := S40x256) hz, View.ld_unit_zero (S := S1x40) hz]
  funext y
  obtain ⟨a, j, rfl⟩ : ∃ (a : Fin 5000) (j : Fin 40), y = ix2 a j := ⟨y 0, y 1, eq_ix2 y⟩
  obtain ⟨-, -, -, -, -, -, e0, e1⟩ := idx_facts t
  refine (pay_apply (iblk2 V c 0 t) (iblk2 V c 1 t) (iblk2 V c 2 t) a j).trans ?_
  have ht : t.val < 10 := lt_of_lt_of_eq t.isLt N_2
  obtain ⟨r, hr⟩ : ∃ r : Fin 50000, r.val = 5000 * t.val + a.val :=
    ⟨⟨5000 * t.val + a.val, by have := a.isLt; omega⟩, rfl⟩
  have hemb : ((cfg2.win 3).blk t).view.emb (ix2 a j) = (ix2 r j : S50000x40.Idx) := by
    funext ax
    apply Fin.ext
    match ax with
    | ⟨0, _⟩ => show win2_3.index t (0 : Fin 2) * 5000 + 1 * a.val = r.val; rw [e0, hr]; omega
    | ⟨1, _⟩ => show win2_3.index t (1 : Fin 2) * 40 + 1 * j.val = j.val; rw [e1]; omega
  rw [View.read_apply]
  show _ = G V c (((cfg2.win 3).blk t).view.emb (ix2 a j))
  rw [hemb]
  refine congrArg₂ (· + ·) (Finset.sum_congr rfl fun c' _ => ?_) ?_
  · exact congrArg₂ (· * ·) (iblk_x V c t (ix2 a c') (ix2 r c') hr rfl) (iblk_w V c t (ix2 j c'))
  · exact iblk_b V c t (ix2 0 j)

/-- An index of the result array is in point t's block iff each coordinate is in the block's range on its axis. -/
theorem mem_blk (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v74).slice (win2_3.rect t)).set ↔ _
  rw [View.set_slice_whole, Rect.mem_set_unit]
  exact Iff.rfl

/-- The ten blocks cover the result array: row r lies in the block of point r / 5000, which writes back. -/
theorem cover (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, htv⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, e0, e1⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    rw [e0, htv]; omega
  | ⟨1, _⟩ =>
    show win2_3.index t (1 : Fin 2) * 40 ≤ (i 1).val ∧ (i 1).val < win2_3.index t (1 : Fin 2) * 40 + 40
    rw [e1]; omega

/-- THE RESULT ARRAY after the region: the linear layer of the input, the weight and the bias row the region finds. -/
theorem final (c : Dev nD) :
    (dat2 (F := Ideal) V c).arrAt 3 cfg2.N
      = Cert.Gcn.lin (n := 50000) (k := 256) (o := 40) (V c main_v72) (V c main_arg6) (fun j => (V c main_v73 : Vec Ideal S1x40 .f32) (ix2 0 j)) :=
  (dat2 V c).arrAt_eq_of_cover 3 (G V c) (fun t _ => flushed_eq V c t) (cover)

end Cert.KernelIdeal.Region2

end
-- ==== Proof.KernelValue.lean ====
/-
  The kernel program's result array, at the extended reals, is the specification's network with each linear layer read
  entry by entry. The three row-tiled linear layers leave  X·Wᵀ + b  (the region modules); between them the program's own
  stretches compute the aggregations over those arrays (the host module); the first two layers' bias row is the zero row,
  whose entries are the extended real 0, and the last layer's bias row is the bias vector laid out as one row.
-/
import proofs.«180855_j39410619908620_1_alg».proof.Proof.Gen.KernelIdeal.Frame
import proofs.«180855_j39410619908620_1_alg».proof.Proof.Spec
import proofs.«180855_j39410619908620_1_alg».proof.Proof.KernelHost
import proofs.«180855_j39410619908620_1_alg».proof.Proof.Region0
import proofs.«180855_j39410619908620_1_alg».proof.Proof.Region1
import proofs.«180855_j39410619908620_1_alg».proof.Proof.Region2
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.TcCoe Idealize.ShloMosaic.ValueIdx Idealize.SL.Sem

/-- Every entry of the zero bias row is the extended real 0. -/
theorem zrow_apply (j : Fin 256) :
    (shapeCast S1x256 (broadcastInDim S256 ![] bcast_S_S256 (constant (F := Ideal) S_ .f32 0x00000000#32)) shapeCasts_S256_S1x256 : FVec Ideal S1x256 .f32) (ix2 0 j) = 0 := by
  refine (shapeCast_apply _ shapeCasts_S256_S1x256 (ix2 0 j) (ix1 j) ?_).trans ?_
  · rewrite [Shape.rowMajor_val_one, Shape.rowMajor_val_two]; show j.val = 0 * 256 + j.val; omega
  · refine (broadcastInDim_apply _ bcast_S_S256 _ (ix1 j) (fun a => a.elim0) (fun a => a.elim0)).trans ?_
    exact Ideal.ofBits_zero_f32

/-- The bias vector laid out as one row, read at column j, is its entry j. -/
theorem brow_apply (b : Vec Ideal S40 .f32) (j : Fin 40) :
    (shapeCast S1x40 b shapeCasts_S40_S1x40 : Vec Ideal S1x40 .f32) (ix2 0 j) = b (ix1 j) := by
  refine shapeCast_apply b shapeCasts_S40_S1x40 (ix2 0 j) (ix1 j) ?_
  rewrite [Shape.rowMajor_val_one, Shape.rowMajor_val_two]; show j.val = 0 * 40 + j.val; omega

/-- A linear layer depends on its input and on its bias row entry by entry. -/
theorem lin_congr {n k o : Nat} {X X' : FVec Ideal ⟨2, ![n, k]⟩ .f32} {W : FVec Ideal ⟨2, ![o, k]⟩ .f32} {b b' : Fin o → EReal}
    (hX : X = X') (hb : ∀ j, b j = b' j) : Cert.Gcn.lin X W b = Cert.Gcn.lin X' W b' := by
  subst hX
  rw [show b = b' from funext hb]

variable (m : (ℓ : Loc nD τ sig) → Buf (Elt Ideal) ℓ) (ρ : Dev nD → PrngReg)

/-- The result array after the run is the network of the argument arrays. -/
theorem kernel_eq (c : Dev nD) :
    W8 m ρ c (Proc.devRef .tc main_v74)
      = Cert.Gcn.linOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [KHost.W8_v74 m ρ c, Region2.final (V7 m ρ) c]
  dsimp only [V7]
  rw [KHost.W7_v72 m ρ c, KHost.W7_arg6 m ρ c, KHost.W7_v73 m ρ c, KHost.W6_v53 m ρ c, Region1.final (V5 m ρ) c]
  dsimp only [V5]
  rw [KHost.W6_v1 m ρ c, KHost.W6_v3 m ρ c, KHost.W6_v25 m ρ c, KHost.W6_v27 m ρ c, KHost.W6_arg5 m ρ c, KHost.W6_arg6 m ρ c, KHost.W6_arg7 m ρ c,
    KHost.W5_v50 m ρ c, KHost.W5_v52 m ρ c, KHost.W5_v1 m ρ c, KHost.W5_v3 m ρ c, KHost.W5_v25 m ρ c, KHost.W5_v27 m ρ c, KHost.W5_arg4 m ρ c, KHost.W5_arg5 m ρ c, KHost.W5_arg6 m ρ c, KHost.W5_arg7 m ρ c,
    KHost.W2_v30 m ρ c, Region0.final (V1 m ρ) c]
  dsimp only [V1]
  rw [KHost.W2_v1 m ρ c, KHost.W2_v3 m ρ c, KHost.W2_v25 m ρ c, KHost.W2_v27 m ρ c, KHost.W2_arg3 m ρ c, KHost.W2_arg4 m ρ c, KHost.W2_arg5 m ρ c, KHost.W2_arg6 m ρ c, KHost.W2_arg7 m ρ c,
    KHost.W1_v1 m ρ c, KHost.W1_v3 m ρ c, KHost.W1_v25 m ρ c, KHost.W1_v27 m ρ c, KHost.W1_v29 m ρ c,
    KHost.W1_arg0 m ρ c, KHost.W1_arg2 m ρ c, KHost.W1_arg3 m ρ c, KHost.W1_arg4 m ρ c, KHost.W1_arg5 m ρ c, KHost.W1_arg6 m ρ c, KHost.W1_arg7 m ρ c]
  unfold Cert.Gcn.linOut Cert.Gcn.conv
  exact lin_congr (congrArg (fun h => Cert.Gcn.convCore h _ _ _ _ _)
      (lin_congr (congrArg Cert.Gcn.relu (congrArg (fun h => Cert.Gcn.convCore h _ _ _ _ _) (lin_congr rfl zrow_apply))) zrow_apply))
    (fun j => brow_apply _ j)

end Cert.KernelIdeal.KValue

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«180855_j39410619908620_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.RefValue.lean ====
/-
  The reference program's result is the graph convolution network of the specification.

  First, for any float family: the composed term the reference program leaves in its result buffer is, read as a
  tree, the specification's composition lin₂(conv(lin₁(relu(conv(lin₀ x))))) with each linear layer a host dot product
  against the transposed weight. The two are the same term once the specification's names are opened.

  Second, over the extended reals: a host dot product of X (n × k) against the transpose of W (o × k) has at entry
  (a, j) the value Σ_c X(a, c) · W(j, c), because the transpose read at (c, j) is W(j, c); and adding a bias row that
  was broadcast first to 1 × o and then to n × o adds b(j) at that entry. So each of the three layers is the
  entry-by-entry linear layer `lin`, and the reference's result is `linOut` of its eight arguments.
-/
import proofs.«180855_j39410619908620_1_alg».proof.Proof.Spec
import proofs.«180855_j39410619908620_1_alg».proof.Proof.Gen.ReferenceIdeal.Run
import proofs.«180855_j39410619908620_1_alg».proof.Proof.LibPlainDot
import Idealize.ShloMosaic.Lib.ValueIdx
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Idealize.ShloMosaic Idealize.ShloMosaic.TcCoe Idealize.ShloMosaic.ValueIdx Idealize.SL.Sem

set_option maxRecDepth 8192 in
set_option maxHeartbeats 4000000 in
/-- For any float family, the reference program's composed result term is the specification's composition of its
    eight arguments: opened up, the two are one and the same tree. -/
theorem res_eq_refOut {F : FTy → Type} [FloatOps F] (m : (ℓ : Loc nD τ sig) → Buf (Elt F) ℓ) (c : Dev nD) :
    Cert.ReferenceIdeal.Value.res_main_v99 (F := F) m c
      = Cert.Gcn.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v99 Cert.Gcn.refOut Cert.Gcn.conv Cert.Gcn.convCore Cert.Gcn.relu Cert.Gcn.norm Cert.Gcn.selfn Cert.Gcn.dinv Cert.Gcn.wrap Cert.Gcn.src Cert.Gcn.dst
  rfl

/-- The first layer: 50000 × 128 features against the transposed 256 × 128 weight, no bias. -/
theorem dot0_eq_lin (X : (⟨S50000x128, .f32⟩ : BufTy).Contents (Elt Ideal)) (W : (⟨S256x128, .f32⟩ : BufTy).Contents (Elt Ideal)) :
    Host.dotGeneral (F := Ideal) (φ₁ := .f32) (φ₂ := .f32) dot_S50000x128_S128x256_S50000x256_1_0_0_1_n_n none X (transpose S128x256 [1, 0] W transposes_S256x128_S128x256_1_0)
      = Cert.Gcn.lin X W (fun _ => 0) := by
  funext i
  obtain ⟨a, j, rfl⟩ : ∃ a j, i = ix2 a j := ⟨i 0, i 1, eq_ix2 i⟩
  show FloatOps.dotGeneral (F := Ideal) (φ₁ := .f32) (φ₂ := .f32) dot_S50000x128_S128x256_S50000x256_1_0_0_1_n_n none .single X _ (ix2 a j) = _
  rw [PlainMatmul.dotGeneral_apply dot_S50000x128_S128x256_S50000x256_1_0_0_1_n_n dot_S50000x128_S128x256_S50000x256_1_0_0_1_n_n_wf rfl]
  unfold Cert.Gcn.lin
  rw [add_zero]
  refine Finset.sum_congr rfl fun c _ => ?_
  rw [transpose_apply [1, 0] W transposes_S256x128_S128x256_1_0 (ix2 c j) (ix2 j c) (fun b => match b with
    | ⟨0, _⟩ => rfl
    | ⟨1, _⟩ => rfl)]

/-- The second layer: 50000 × 256 features against the transposed 256 × 256 weight, no bias. -/
theorem dot1_eq_lin (X : (⟨S50000x256, .f32⟩ : BufTy).Contents (Elt Ideal)) (W : (⟨S256x256, .f32⟩ : BufTy).Contents (Elt Ideal)) :
    Host.dotGeneral (F := Ideal) (φ₁ := .f32) (φ₂ := .f32) dot_S50000x256_S256x256_S50000x256_1_0_0_1_n_n none X (transpose S256x256 [1, 0] W transposes_S256x256_S256x256_1_0)
      = Cert.Gcn.lin X W (fun _ => 0) := by
  funext i
  obtain ⟨a, j, rfl⟩ : ∃ a j, i = ix2 a j := ⟨i 0, i 1, eq_ix2 i⟩
  show FloatOps.dotGeneral (F := Ideal) (φ₁ := .f32) (φ₂ := .f32) dot_S50000x256_S256x256_S50000x256_1_0_0_1_n_n none .single X _ (ix2 a j) = _
  rw [PlainMatmul.dotGeneral_apply dot_S50000x256_S256x256_S50000x256_1_0_0_1_n_n dot_S50000x256_S256x256_S50000x256_1_0_0_1_n_n_wf rfl]
  unfold Cert.Gcn.lin
  rw [add_zero]
  refine Finset.sum_congr rfl fun c _ => ?_
  rw [transpose_apply [1, 0] W transposes_S256x256_S256x256_1_0 (ix2 c j) (ix2 j c) (fun b => match b with
    | ⟨0, _⟩ => rfl
    | ⟨1, _⟩ => rfl)]

/-- The last layer: 50000 × 256 features against the transposed 40 × 256 weight, plus the bias row broadcast down the rows. -/
theorem dot2_eq_lin (X : (⟨S50000x256, .f32⟩ : BufTy).Contents (Elt Ideal)) (W : (⟨S40x256, .f32⟩ : BufTy).Contents (Elt Ideal))
    (b : (⟨S40, .f32⟩ : BufTy).Contents (Elt Ideal)) :
    addf (Host.dotGeneral (F := Ideal) (φ₁ := .f32) (φ₂ := .f32) dot_S50000x256_S256x40_S50000x40_1_0_0_1_n_n none X (transpose S256x40 [1, 0] W transposes_S40x256_S256x40_1_0))
        (broadcastInDim S50000x40 ![0, 1] bcast_S1x40_S50000x40_0_1 (broadcastInDim S1x40 ![1] bcast_S40_S1x40_1 b))
      = Cert.Gcn.lin X W (fun j => b (ix1 j)) := by
  funext i
  obtain ⟨a, j, rfl⟩ : ∃ a j, i = ix2 a j := ⟨i 0, i 1, eq_ix2 i⟩
  rw [addf_apply]
  show FloatOps.dotGeneral (F := Ideal) (φ₁ := .f32) (φ₂ := .f32) dot_S50000x256_S256x40_S50000x40_1_0_0_1_n_n none .single X _ (ix2 a j) + _ = _
  rw [PlainMatmul.dotGeneral_apply dot_S50000x256_S256x40_S50000x40_1_0_0_1_n_n dot_S50000x256_S256x40_S50000x40_1_0_0_1_n_n_wf rfl]
  rw [broadcastInDim_apply _ bcast_S1x40_S50000x40_0_1 _ (ix2 a j) (ix2 (⟨0, Nat.one_pos⟩ : Fin 1) j) (fun d => match d with
    | ⟨0, _⟩ => by show 0 = if (1 : Nat) = 1 then 0 else a.val; rw [if_pos rfl]
    | ⟨1, _⟩ => by show j.val = if (40 : Nat) = 1 then 0 else j.val; rw [if_neg (by decide)])]
  rw [broadcastInDim_apply _ bcast_S40_S1x40_1 b (ix2 (⟨0, Nat.one_pos⟩ : Fin 1) j) (ix1 j) (fun d => match d with
    | ⟨0, _⟩ => by show j.val = if (40 : Nat) = 1 then 0 else j.val; rw [if_neg (by decide)])]
  unfold Cert.Gcn.lin
  refine congrArg (· + b (ix1 j)) (Finset.sum_congr rfl fun c _ => ?_)
  rw [transpose_apply [1, 0] W transposes_S40x256_S256x40_1_0 (ix2 c j) (ix2 j c) (fun b => match b with
    | ⟨0, _⟩ => rfl
    | ⟨1, _⟩ => rfl)]

/-- Over the extended reals every host dot product against a transposed weight is the entry-by-entry linear layer,
    so the specification's composition is `linOut`. -/
theorem refOut_eq_linOut (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S40x256, .f32⟩ : BufTy).Contents (Elt Ideal)) (x7 : (⟨S40, .f32⟩ : BufTy).Contents (Elt Ideal)) :
    Cert.Gcn.refOut (F := Ideal) x0 x1 x2 x3 x4 x5 x6 x7 = Cert.Gcn.linOut x0 x1 x2 x3 x4 x5 x6 x7 := by
  unfold Cert.Gcn.refOut Cert.Gcn.linOut
  rw [dot0_eq_lin, dot1_eq_lin, dot2_eq_lin]

/-- Over the extended reals the reference program's result is `linOut` of its eight arguments. -/
theorem ref_eq (m : (ℓ : Loc nD τ sig) → Buf (Elt Ideal) ℓ) (c : Dev nD) :
    Cert.ReferenceIdeal.Value.res_main_v99 (F := Ideal) m c
      = Cert.Gcn.linOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (res_eq_refOut m c).trans (refOut_eq_linOut _ _ _ _ _ _ _ _)

end Cert.ReferenceIdeal.RefValue

end
-- ==== Proof.lean ====
/-
  A two-layer graph convolution network: three row-tiled linear layers run as kernels (each a product with the
  transposed weight into a zero accumulator, plus a bias row), the symmetric-normalised neighbourhood aggregation between
  them on the host, against the same network with the linear layers as host dot products. At the extended reals a change
  of float format is the identity, the tiled product of a block of rows with Wᵀ is the rows of the whole product, adding
  the zero row changes nothing, and the aggregation is the same composition of gathers and scatter-adds over the same edge
  data in both programs: both results are ONE function of the arguments (`Cert.Gcn.linOut`). No step needs the inputs finite.

  The frames of the two kernel programs are the generated ones; the reference's is its generated run with the result dropped.
  The idealisation rewrote nothing, so `preserves` is trivial.
-/
import proofs.«180855_j39410619908620_1_alg».proof.Defs
import proofs.«180855_j39410619908620_1_alg».proof.Proof.Gen.Kernel
import proofs.«180855_j39410619908620_1_alg».proof.Proof.Gen.Kernel.Skeleton
import proofs.«180855_j39410619908620_1_alg».proof.Proof.Gen.Kernel.Launch
import proofs.«180855_j39410619908620_1_alg».proof.Proof.Gen.Kernel.Points
import proofs.«180855_j39410619908620_1_alg».proof.Proof.Gen.Kernel.Frame
import proofs.«180855_j39410619908620_1_alg».proof.Proof.Gen.KernelIdeal
import proofs.«180855_j39410619908620_1_alg».proof.Proof.Gen.KernelIdeal.Skeleton
import proofs.«180855_j39410619908620_1_alg».proof.Proof.Gen.KernelIdeal.Launch
import proofs.«180855_j39410619908620_1_alg».proof.Proof.Gen.KernelIdeal.Points
import proofs.«180855_j39410619908620_1_alg».proof.Proof.Gen.KernelIdeal.Frame
import proofs.«180855_j39410619908620_1_alg».proof.Proof.Gen.ReferenceIdeal
import proofs.«180855_j39410619908620_1_alg».proof.Proof.Gen.ReferenceIdeal.Run
import proofs.«180855_j39410619908620_1_alg».proof.Proof.Gen.Pre_finite_inputs
import proofs.«180855_j39410619908620_1_alg».proof.Proof.Spec
import proofs.«180855_j39410619908620_1_alg».proof.Proof.KernelRun
import proofs.«180855_j39410619908620_1_alg».proof.Proof.KernelValue
import proofs.«180855_j39410619908620_1_alg».proof.Proof.RefValue
import Idealize.ShloMosaic.Adequacy
import Idealize.ShloMosaic.Init

noncomputable section

namespace Cert.Proof

open Idealize.ShloMosaic Idealize.SL.Sem

/-- Both idealised programs end with the result array at the network of the (agreeing) argument arrays. -/
theorem algebraic : Cert.algebraic_KernelIdeal_ReferenceIdeal := by
  intro m ρ m' ρ' _ hagree
  refine ⟨fun c => Cert.Gcn.linOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.kernel_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_eq m' c]
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
